-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) (main_arg2 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S16777216x1 .f32 := Host.absf main_arg2
  let main_cst_2 : FVec F S_ .f32 := constant S_ .f32 0x7F800000#32
  let main_v10 : FVec F S16777216x1 .f32 := broadcastInDim S16777216x1 ![] bcast_S_S16777216x1 main_cst_2
  let main_v11 : IVec S16777216x1 1 := cmpf .olt main_v9 main_v10
  let main_c_3 : IVec S_ 1 := constantI S_ 1 1#1
  let main_v12 : IVec S_ 1 := (fun x v => Host.reduce IntOp.andi x v reducesTo_S16777216x1_S_d0_1 h_S_) main_v11 main_c_3
  let main_v13 : IVec S_ 1 := andi main_v8 main_v12
  main_v13
-- ==== Kernel.lean ====
abbrev S16777216x1 : Shape := ⟨2, ![16777216, 1]⟩
abbrev S131072x128 : Shape := ⟨2, ![131072, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S131072x128, .f32⟩
  | .hbm, ⟨4, _⟩ => ⟨S131072x128, .f32⟩
  | .hbm, ⟨5, _⟩ => ⟨S1x1, .f32⟩
  | .hbm, ⟨6, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1, .f32⟩
  | .local _ .vmem, ⟨5, _⟩ => ⟨S1x1, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216x1_S131072x128 : S16777216x1.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x1 : Shape := ⟨2, ![16777216, 1]⟩
abbrev S16777216x2 : Shape := ⟨2, ![16777216, 2]⟩
abbrev S_ : Shape := ⟨0, ![]⟩
abbrev S16777216 : Shape := ⟨1, ![16777216]⟩

abbrev nBuf : Space → Nat
  | .hbm => 24
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S16777216x2, .f32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S16777216x1, .f32⟩
  | .hbm, ⟨10, _⟩ => ⟨S16777216x2, .f32⟩
  | .hbm, ⟨11, _⟩ => ⟨S16777216x2, .f32⟩
  | .hbm, ⟨12, _⟩ => ⟨S16777216x2, .f32⟩
  | .hbm, ⟨13, _⟩ => ⟨S_, .f32⟩
  | .hbm, ⟨14, _⟩ => ⟨S16777216, .f32⟩
  | .hbm, ⟨15, _⟩ => ⟨S16777216x1, .f32⟩
  | .hbm, ⟨16, _⟩ => ⟨S16777216x1, .f32⟩
  | .hbm, ⟨17, _⟩ => ⟨S16777216x2, .f32⟩
  | .hbm, ⟨18, _⟩ => ⟨S16777216x2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  concatenates_S16777216x1_S16777216x1_S16777216x2_d1 : Shape.Concatenates [S16777216x1, S16777216x1] S16777216x2 1
  reducesTo_S16777216x2_S16777216_d1 : S16777216x2.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x2_0_1 : S16777216x1.BroadcastsInDim S16777216x2 (![0, 1] : Fin 2 → Fin S16777216x2.rank)
  reducesTo_S16777216x2_S_d0_1 : S16777216x2.ReducesTo [0, 1] S_

variable [Facts₀]

class Facts : Prop extends Facts₀ where

variable [Facts]
-- ==== Proof.Spec.lean ====
/-
  The mathematics both programs compute, stated once and over no program.

  Per row `i` of the two score columns, with `M = max s a` and `L = log (exp (s - M) + exp (a - M))`:
  the kernel adds up `(s + a) - 2 * (M + L)` (`rowK`), the reference the two shifted log-probabilities
  `((s - M) - L) + ((a - M) - L)` (`rowR`).  For real `s`, `a` every intermediate is a real number (the
  argument of the logarithm is a sum of two exponentials, hence positive), and the two are equal by ring
  arithmetic (`rowR_eq_rowK`).  On the extended reals the identity needs that finiteness.

  The loss is minus the total over all 16777216 rows divided by 2^25 (`loss`).  The kernel reaches the total
  block by block (64 blocks of 2048 rows of 128 lanes); a finite sum in a commutative monoid may be
  re-indexed freely, flat position `(t * 2048 + r) * 128 + l` (`sum_blocks`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The float patterns the two programs spell, as extended reals -/

/-- `2.0` denotes the real 2. -/
theorem ofBits_two : Ideal.ofBits .f32 0x40000000#32 = ((2 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The pattern of plus infinity denotes the top element. -/
theorem ofBits_pos_inf : Ideal.ofBits .f32 0x7F800000#32 = ⊤ := by
  simp [Ideal.ofBits, Ideal.ieee]

/-! ## One row -/

/-- The logarithm of the two exponentials, each shifted by the row's maximum. -/
def shiftedLog (s a : EReal) : EReal := Ideal.log (Ideal.exp (s - max s a) + Ideal.exp (a - max s a))

/-- A row's term as the kernel groups it: `(s + a) - 2 * (max + shiftedLog)`. -/
def rowK (s a : EReal) : EReal := (s + a) - Ideal.ofBits .f32 0x40000000#32 * (max s a + shiftedLog s a)

/-- A row's term as the reference groups it: its two shifted log-probabilities, added. -/
def rowR (s a : EReal) : EReal := ((s - max s a) - shiftedLog s a) + ((a - max s a) - shiftedLog s a)

/-- The maximum of two reals, embedded. -/
theorem coe_max (s a : ℝ) : max (s : EReal) (a : EReal) = ((max s a : ℝ) : EReal) :=
  (EReal.coe_strictMono.monotone.map_max).symm

/-- On real scores the two groupings are the same real number. -/
theorem rowR_eq_rowK (s a : ℝ) : rowR (s : EReal) (a : EReal) = rowK (s : EReal) (a : EReal) := by
  have hpos : ¬ (Real.exp (s - max s a) + Real.exp (a - max s a) ≤ 0) :=
    not_le.mpr (add_pos (Real.exp_pos _) (Real.exp_pos _))
  unfold rowR rowK shiftedLog
  rw [coe_max, ofBits_two]
  simp only [← EReal.coe_sub, Ideal.exp_coe, ← EReal.coe_add, Ideal.log_coe, if_neg hpos, ← EReal.coe_mul]
  rw [EReal.coe_eq_coe_iff]
  ring

/-! ## The whole loss -/

/-- The total of the rows' terms. -/
def total (s a : Fin 16777216 → EReal) : EReal := ∑ i, rowK (s i) (a i)

/-- The loss: minus the total over `2^25` (the divisor kept as the pattern both programs spell). -/
def loss (s a : Fin 16777216 → EReal) : EReal := -(Ideal.div (total s a) (Ideal.ofBits .f32 0x4C000000#32))

/-- What one block of 2048 rows of 128 lanes contributes. -/
def blockSum (x0 x1 : (⟨2, ![2048, 128]⟩ : Shape).Idx → EReal) : EReal :=
  ∑ r : Fin 2048, ∑ l : Fin 128, rowK (x0 (ix2 r l)) (x1 (ix2 r l))

/-! ## Re-indexing a flat sum -/

theorem flat_lt {A B : ℕ} (a : Fin A) (b : Fin B) : a.val * B + b.val < A * B := by
  have hb := b.isLt
  calc a.val * B + b.val < a.val * B + B := by omega
    _ = (a.val + 1) * B := by ring
    _ ≤ A * B := Nat.mul_le_mul_right B a.isLt

/-- A sum over `Fin N`, `N = A * B`, as a double sum, flat position `a * B + b`. -/
theorem sum_fin_mul {M : Type*} [AddCommMonoid M] {N : ℕ} (A B : ℕ) (h : A * B = N) (f : Fin N → M) :
    ∑ i, f i = ∑ a : Fin A, ∑ b : Fin B, f ⟨a.val * B + b.val, h ▸ flat_lt a b⟩ := by
  subst h
  rw [← (finProdFinEquiv (m := A) (n := B)).sum_comp f, Fintype.sum_prod_type]
  refine Finset.sum_congr rfl fun a _ => Finset.sum_congr rfl fun b _ => congrArg f (Fin.ext ?_)
  simp only [finProdFinEquiv_apply_val]
  ring

/-- Lane `l` of row `r` of block `t`, as a flat row number. -/
def flat (t : Fin 64) (r : Fin 2048) (l : Fin 128) : Fin 16777216 :=
  ⟨(t.val * 2048 + r.val) * 128 + l.val, by have := t.isLt; have := r.isLt; have := l.isLt; omega⟩

/-- The flat sum over all rows, block by block, row by row, lane by lane. -/
theorem sum_blocks {M : Type*} [AddCommMonoid M] (f : Fin 16777216 → M) :
    ∑ i, f i = ∑ t : Fin 64, ∑ r : Fin 2048, ∑ l : Fin 128, f (flat t r l) := by
  rw [sum_fin_mul 131072 128 (by norm_num) f,
    sum_fin_mul 64 2048 (by norm_num) (fun a : Fin 131072 => ∑ b : Fin 128, f ⟨a.val * 128 + b.val, _⟩)]
  rfl

/-- So the total is the sum of the 64 blocks' contributions, block `t`'s rows read at `flat t r l`. -/
theorem total_eq_blocks (s a : Fin 16777216 → EReal) :
    total s a = ∑ t : Fin 64, ∑ r : Fin 2048, ∑ l : Fin 128, rowK (s (flat t r l)) (a (flat t r l)) :=
  sum_blocks fun i => rowK (s i) (a i)

end Cert.Spec

end
-- ==== Proof.RefVal.lean ====
/-
  The idealized reference's result, as one function of the two score columns.

  Row `n` of the concatenated [16777216, 2] array is `(s, a)`, the two columns' entries.  Its maximum, taken from
  minus infinity, is `max s a`; the shifted entries are `s - M` and `a - M`; the sum of their exponentials, taken
  from zero, is `exp (s - M) + exp (a - M)`; so the row's two log-probabilities are `(s - M) - L` and `(a - M) - L`
  (`Spec.rowR`).  The mean's numerator, taken from zero over both axes, is the sum over rows of these pairs; on real
  scores each pair is the kernel's grouping of the row (`Spec.rowR_eq_rowK`), so the result is `Spec.loss`.
-/
import proofs.«180265_j19825569038545_1_alg».proof.Proof.RefRead
import proofs.«180265_j19825569038545_1_alg».proof.Proof.Spec
import Idealize.ShloMosaic.Lib.Pipeline.Value
import Idealize.ShloMosaic.Lib.ValueIdx
import Idealize.ShloMosaic.PureOps.Ideal.Laws

noncomputable section

namespace Cert.ReferenceIdeal.RefVal

open Idealize.ShloMosaic Idealize.ShloMosaic.ValueIdx
open Cert.ReferenceIdeal Cert.ReferenceIdeal.Gen Cert.ReferenceIdeal.ReadP

variable (x1 x2 : (⟨S16777216x1, .f32⟩ : BufTy).Contents (Elt Ideal))

/-- A score column, row by row. -/
abbrev col (x : (⟨2, ![16777216, 1]⟩ : Shape).Idx → EReal) : Fin 16777216 → EReal := fun i => x (ix2 i 0)

/-! ## The index maps of the generated stage lemmas, at `ix1 n` / `ix2 n k` -/

theorem idx_v3 (n : Fin 16777216) (k : Fin 1) : idx_main_call0_v3 (ix2 n k) = ix1 n :=
  funext fun a => Fin.ext (by match a with | ⟨0, _⟩ => rfl)
theorem idx_v4 (n : Fin 16777216) (k : Fin 2) : idx_main_call0_v4 (ix2 n k) = ix2 n (0 : Fin 1) :=
  funext fun a => Fin.ext (by match a with | ⟨0, _⟩ => rfl | ⟨1, _⟩ => rfl)
theorem idx_v7 (n : Fin 16777216) (k : Fin 2) : idx_main_call0_v7 (ix1 n) k = ix2 n k :=
  funext fun a => Fin.ext (by match a with | ⟨0, _⟩ => rfl | ⟨1, _⟩ => rfl)
theorem idx_v8 (n : Fin 16777216) (k : Fin 1) : idx_main_call0_v8 (ix2 n k) = ix1 n :=
  funext fun a => Fin.ext (by match a with | ⟨0, _⟩ => rfl)
theorem idx_v10 (n : Fin 16777216) (k : Fin 2) : idx_main_call0_v10 (ix2 n k) = ix2 n (0 : Fin 1) :=
  funext fun a => Fin.ext (by match a with | ⟨0, _⟩ => rfl | ⟨1, _⟩ => rfl)

/-! ## The two stages read by hand -/

/-- The concatenation's first column is the first score column, -/
theorem cat0 (n : Fin 16777216) : val_main_v0 (F := Ideal) x1 x2 (ix2 n (0 : Fin 2)) = x1 (ix2 n 0) := by
  unfold val_main_v0
  exact concatenate_pair_apply_left (1 : Fin 2) x1 x2 concatenates_S16777216x1_S16777216x1_S16777216x2_d1 (ix2 n (0 : Fin 2)) rfl
    (ix2 n 0) (fun b => by match b with | ⟨0, _⟩ => rfl | ⟨1, _⟩ => rfl)

/-- and its second column the second. -/
theorem cat1 (n : Fin 16777216) : val_main_v0 (F := Ideal) x1 x2 (ix2 n (1 : Fin 2)) = x2 (ix2 n 0) := by
  unfold val_main_v0
  exact concatenate_pair_apply_right (1 : Fin 2) x1 x2 concatenates_S16777216x1_S16777216x1_S16777216x2_d1 (ix2 n (1 : Fin 2)) rfl rfl
    (ix2 n 0) (fun b hb => by match b with | ⟨0, _⟩ => rfl | ⟨1, _⟩ => exact absurd rfl hb) rfl

/-- The maximum of two entries folded from minus infinity. -/
theorem fold_max_two (f : Fin 2 → EReal) : (Finset.univ : Finset (Fin 2)).fold max ⊥ f = max (f 0) (f 1) := by
  rw [show (Finset.univ : Finset (Fin 2)) = insert 0 {1} from by decide, Finset.fold_insert (by decide),
    Finset.fold_singleton, max_bot_right]

/-- A row's maximum, folded from minus infinity over its two entries, then joined with minus infinity again. -/
theorem rowMax (n : Fin 16777216) :
    val_main_call0_v2 (F := Ideal) x1 x2 (ix1 n) = max (x1 (ix2 n 0)) (x2 (ix2 n 0)) := by
  have hR : S16777216x2.Reduces [(1 : Fin 2)] S16777216 := by decide
  have l0 : hR.lift (ix1 n) (0 : Fin 2) = ix2 n (0 : Fin 2) :=
    funext fun a => Fin.ext (by match a with | ⟨0, _⟩ => rfl | ⟨1, _⟩ => rfl)
  have l1 : hR.lift (ix1 n) (1 : Fin 2) = ix2 n (1 : Fin 2) :=
    funext fun a => Fin.ext (by match a with | ⟨0, _⟩ => rfl | ⟨1, _⟩ => rfl)
  rw [val_main_call0_v2_apply, val_main_call0_v1_apply, val_main_call0_cst_0_apply]
  unfold val_main_call0_v0
  rw [Host.reduce_eq_fold_single FloatOps.maximumf _ _ reducesTo_S16777216x2_S16777216_d1 hR h_S_ (ix1 n)]
  show max (Ideal.ofBits .f32 0xFF800000#32) ((Finset.univ : Finset (Fin 2)).fold max (Ideal.ofBits .f32 0xFF800000#32)
    (val_main_v0 (F := Ideal) x1 x2 ∘ hR.lift (ix1 n))) = _
  rw [Spec.ofBits_neg_inf]
  refine (congrArg (max ⊥) (fold_max_two (val_main_v0 (F := Ideal) x1 x2 ∘ hR.lift (ix1 n)))).trans ?_
  show max ⊥ (max (val_main_v0 (F := Ideal) x1 x2 (hR.lift (ix1 n) (0 : Fin 2))) (val_main_v0 (F := Ideal) x1 x2 (hR.lift (ix1 n) (1 : Fin 2)))) = _
  rw [l0, l1, cat0, cat1, max_bot_left]

/-- Entry `k` of row `n`, shifted by the row's maximum. -/
theorem shifted (n : Fin 16777216) (k : Fin 2) :
    val_main_call0_v5 (F := Ideal) x1 x2 (ix2 n k)
      = val_main_v0 (F := Ideal) x1 x2 (ix2 n k) - max (x1 (ix2 n 0)) (x2 (ix2 n 0)) := by
  rw [val_main_call0_v5_apply, val_main_call0_v4_apply, idx_v4, val_main_call0_v3_apply, idx_v3, rowMax]
  rfl

/-- The sum of the row's two exponentials, taken from zero. -/
theorem sumExp (n : Fin 16777216) :
    val_main_call0_v7 (F := Ideal) x1 x2 (ix1 n)
      = Ideal.exp (x1 (ix2 n 0) - max (x1 (ix2 n 0)) (x2 (ix2 n 0))) + Ideal.exp (x2 (ix2 n 0) - max (x1 (ix2 n 0)) (x2 (ix2 n 0))) := by
  rw [val_main_call0_v7_apply, Fin.sum_univ_two, idx_v7, idx_v7, val_main_call0_v6_apply, val_main_call0_v6_apply,
    shifted, shifted, cat0, cat1, val_main_call0_cst_1_apply]
  show Ideal.ofBits .f32 0x00000000#32 + _ = _
  rw [Ideal.ofBits_zero_f32, zero_add]
  rfl

/-- Log-probability `k` of row `n`. -/
theorem logProb (n : Fin 16777216) (k : Fin 2) :
    val_main_v1 (F := Ideal) x1 x2 (ix2 n k)
      = (val_main_v0 (F := Ideal) x1 x2 (ix2 n k) - max (x1 (ix2 n 0)) (x2 (ix2 n 0))) - Spec.shiftedLog (x1 (ix2 n 0)) (x2 (ix2 n 0)) := by
  rw [val_main_v1_apply, shifted, val_main_call0_v10_apply, idx_v10, val_main_call0_v9_apply, val_main_call0_v8_apply, idx_v8, sumExp]
  rfl

/-- A row's two log-probabilities, added, in the reference's grouping. -/
theorem rowPair (n : Fin 16777216) :
    val_main_v1 (F := Ideal) x1 x2 (ix2 n (0 : Fin 2)) + val_main_v1 (F := Ideal) x1 x2 (ix2 n (1 : Fin 2))
      = Spec.rowR (x1 (ix2 n 0)) (x2 (ix2 n 0)) := by
  rw [logProb, logProb, cat0, cat1]
  rfl

/-- On real scores the reference's result is the loss of the two columns. -/
theorem val_eq_loss (h1 : ∀ j, ∃ r : ℝ, x1 j = (r : EReal)) (h2 : ∀ j, ∃ r : ℝ, x2 j = (r : EReal)) :
    val_main_v4 (F := Ideal) x1 x2 = fun _ => Spec.loss (col x1) (col x2) := by
  funext i
  rw [val_main_v4_apply, val_main_v3_apply, val_main_v2_apply, val_main_cst_apply, val_main_cst_0_apply]
  show -(Ideal.div (Ideal.ofBits .f32 0x00000000#32 + ∑ j : S16777216x2.Idx, val_main_v1 (F := Ideal) x1 x2 j) (Ideal.ofBits .f32 0x4C000000#32)) = _
  rw [Ideal.ofBits_zero_f32, zero_add]
  have key : (∑ j : S16777216x2.Idx, val_main_v1 (F := Ideal) x1 x2 j) = Spec.total (col x1) (col x2) := by
    rw [show (∑ j : S16777216x2.Idx, val_main_v1 (F := Ideal) x1 x2 j)
        = ∑ n : Fin 16777216, ∑ k : Fin 2, val_main_v1 (F := Ideal) x1 x2 (ix2 n k) from sum_idx2 _]
    unfold Spec.total
    refine Finset.sum_congr rfl fun n _ => ?_
    rw [Fin.sum_univ_two, rowPair]
    obtain ⟨s, hs⟩ := h1 (ix2 n 0)
    obtain ⟨a, ha⟩ := h2 (ix2 n 0)
    show Spec.rowR (x1 (ix2 n 0)) (x2 (ix2 n 0)) = Spec.rowK (x1 (ix2 n 0)) (x2 (ix2 n 0))
    rw [hs, ha]
    exact Spec.rowR_eq_rowK s a
  rw [key]
  rfl

end Cert.ReferenceIdeal.RefVal

end
-- ==== Proof.KPay.lean ====
/-
  The kernel body's three stores, read at an index of the 1x1 accumulator.

  The reset stores `0`.  The update stores the accumulator plus the block's contribution: the lane sums of
  `(s + a) - 2 * (max + log (exp (s - max) + exp (a - max)))` over a row's 128 lanes, then the sum of those
  over the block's 2048 rows (`Spec.blockSum`).  The last point's store is `0 - acc / 2^25`.
-/
import proofs.«180265_j19825569038545_1_alg».proof.Proof.Gen.KernelIdeal.Skeleton
import proofs.«180265_j19825569038545_1_alg».proof.Proof.Spec
import Idealize.ShloMosaic.Lib.Pipeline.Value
import Idealize.ShloMosaic.Lib.ValueIdx
import Idealize.ShloMosaic.PureOps.Ideal.Laws

noncomputable section

namespace Cert.KernelIdeal.KPay

open Idealize.ShloMosaic Idealize.ShloMosaic.ValueIdx
open Cert.KernelIdeal Cert.KernelIdeal.Gen

/-- The reset's value: zero at the accumulator's one index. -/
theorem pay1_apply (j : S1x1.Idx) : k0_pay1 (F := Ideal) j = 0 := by
  unfold k0_pay1
  simp only [shapeCast_self]
  exact Ideal.ofBits_zero_f32

/-- The update's value: what the accumulator held plus the block's contribution. -/
theorem pay2_apply (x0 x1 : Vec Ideal S2048x128 .f32) (acc : Vec Ideal S1x1 .f32) (j : S1x1.Idx) :
    k0_pay2 (F := Ideal) x0 x1 acc j = acc j + Spec.blockSum x0 x1 := by
  unfold k0_pay2
  simp only [shapeCast_self]
  show acc j + _ = _
  congr 1
  rw [shapeCast_apply _ shapeCasts_S1_S1x1 j (ix1 (0 : Fin 1)) (by
    rw [Shape.rowMajor_val_one, Shape.rowMajor_val_two]
    have h0 : (j 0).val < 1 := (j 0).isLt
    have h1 : (j 1).val < 1 := (j 1).isLt
    show (0 : ℕ) = (j 0).val * 1 + (j 1).val
    omega)]
  refine (Ideal.multiReduction_add_single _ _ reduces_S2048x1_S1 _ _ (ix1 (0 : Fin 1))).trans ?_
  show ∑ r : Fin 2048, _ = _
  unfold Spec.blockSum
  refine Finset.sum_congr rfl fun r _ => ?_
  rw [shapeCast_apply _ shapeCasts_S2048_S2048x1 _ (ix1 r) (by
    rw [Shape.rowMajor_val_one, Shape.rowMajor_val_two]
    show r.val = r.val * 1 + 0
    omega)]
  refine (Ideal.multiReduction_add_single _ _ reduces_S2048x128_S2048 _ _ (ix1 r)).trans ?_
  show ∑ l : Fin 128, _ = _
  refine Finset.sum_congr rfl fun l _ => ?_
  have e : reduces_S2048x128_S2048.lift (ix1 r) l = ix2 r l :=
    funext fun a => Fin.ext (by match a with | ⟨0, _⟩ => rfl | ⟨1, _⟩ => rfl)
  rw [e]
  rfl

/-- The last point's value: minus the accumulator over `2^25`, written `0 - acc / 2^25`. -/
theorem pay3_apply (acc : Vec Ideal S1x1 .f32) (j : S1x1.Idx) :
    k0_pay3 (F := Ideal) acc j = -(Ideal.div (acc j) (Ideal.ofBits .f32 0x4C000000#32)) := by
  unfold k0_pay3
  show Ideal.ofBits .f32 0x00000000#32 - Ideal.div (acc j) (Ideal.ofBits .f32 0x4C000000#32) = _
  rw [Ideal.ofBits_zero_f32, zero_sub]

end Cert.KernelIdeal.KPay

end
-- ==== Proof.KPieces.lean ====
/-
  What each control case of the kernel body leaves behind, as the payloads of its stores.

  The body has three cases over the grid: the first point (reset, then update), the middle points (update only),
  the last point (update, then the output store).  In every case the carried 1x1 accumulator ends at the update's
  payload over the point's two input blocks and over what the accumulator held on entry — at the first point that
  is the reset's payload, read back —, and at the last point the output block ends at the output store's payload
  over the updated accumulator, read back.  Each store covers its whole 1x1 buffer, so the pieces read back are
  the payloads themselves.  Stated at any float instance.
-/
import proofs.«180265_j19825569038545_1_alg».proof.Proof.Gen.KernelIdeal.Frame
import Idealize.ShloMosaic.Lib.Pipeline.Value
import Idealize.ShloMosaic.Lib.Tactic

noncomputable section

namespace Cert.KernelIdeal.KPieces

open Idealize.ShloMosaic Idealize.ShloMosaic.TcCoe Idealize.ShloMosaic.Tactic Idealize.SL.Sem
open Cert.KernelIdeal Cert.KernelIdeal.Gen

variable {F : FTy → Type} [FloatOps F]

/-- The stores' offsets are all zero. -/
theorem hz : (![0, 0] : Fin 2 → Nat) = fun _ => 0 := funext fun a => by fin_cases a <;> rfl

/-- A middle point: the accumulator ends at the update over what it held. -/
theorem sout_B (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 x1 : Vec F S2048x128 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread, View.ld_unit_zero (S := S2048x128) hz, View.ld_unit_zero (S := S1x1) hz]

/-- The first point: the accumulator ends at the update over the reset's zero. -/
theorem sout_A (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 x1 : Vec F S2048x128 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread, View.ld_unit_zero (S := S2048x128) hz, View.ld_unit_zero (S := S1x1) hz]

/-- The last point: the accumulator ends at the update over what it held, -/
theorem sout_C (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 x1 : Vec F S2048x128 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S2048x128) hz, View.ld_unit_zero (S := S1x1) hz]

/-- and the output block at the output store's value of that updated accumulator. -/
theorem out_C (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 x1 : Vec F S2048x128 .f32) (xs0 : Vec F S1x1 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S2048x128) hz, View.ld_unit_zero (S := S1x1) hz, View.readCov_unit_zero (S := S1x1) _ hz]

end Cert.KernelIdeal.KPieces

end
-- ==== Proof.KAcc.lean ====
/-
  The accumulator across the grid.

  After point `n` the carried 1x1 scratch holds the running total `(..((0 + B 0) + B 1) + ..) + B n` of the blocks'
  contributions `B t` (`Spec.blockSum` of the two score blocks point `t` reads), by induction on the point: the
  first point resets and adds, every later point adds to what the point before left.  The last point also stores the
  output block: minus the running total over `2^25`.
-/
import proofs.«180265_j19825569038545_1_alg».proof.Proof.KPay
import proofs.«180265_j19825569038545_1_alg».proof.Proof.KPieces

noncomputable section

namespace Cert.KernelIdeal.KAcc

open Idealize.ShloMosaic Idealize.ShloMosaic.TcCoe Idealize.ShloMosaic.ValueIdx Idealize.SL.Sem
open Cert.KernelIdeal Cert.KernelIdeal.Gen Cert.KernelIdeal.KPay Cert.KernelIdeal.KPieces

variable (m : (ℓ : Loc nD τ sig) → Buf (Elt Ideal) ℓ)

/-- The block of the first score column that point `t` reads, and of the second. -/
abbrev synBlk (c : Dev nD) (t : Fin cfg0.N) : Vec Ideal S2048x128 .f32 := iblk m c 0 t
abbrev antBlk (c : Dev nD) (t : Fin cfg0.N) : Vec Ideal S2048x128 .f32 := iblk m c 1 t

/-- The running total after point `n`. -/
def running (c : Dev nD) : (n : ℕ) → n < cfg0.N → EReal
  | 0, h => 0 + Spec.blockSum (synBlk m c ⟨0, h⟩) (antBlk m c ⟨0, h⟩)
  | n + 1, h => running c n (Nat.lt_of_succ_lt h) + Spec.blockSum (synBlk m c ⟨n + 1, h⟩) (antBlk m c ⟨n + 1, h⟩)

/-- The carried scratch after point `n` holds the running total. -/
theorem scratch_eq (c : Dev nD) : ∀ (n : ℕ) (h : n < cfg0.N) (j : S1x1.Idx), (outsAt0 m c n h).2 j = running m c n h
  | 0, h, j => by
    have hA := outsAt0_A m c ⟨0, h⟩ rfl (by dsimp only; omega)
    rw [show outsAt0 m c 0 h = _ from hA]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (fun hh => (by decide : ¬ (0 % 64 = 63)) ((hcond0_1 ⟨0, h⟩).mp hh)) (iblk m c 0 ⟨0, h⟩) (iblk m c 1 ⟨0, h⟩)) j).trans ?_
    rw [pay2_apply, pay1_apply]
    rfl
  | n + 1, h, j => by
    have hN : cfg0.N = 64 := N_0
    have h0 : ¬ (⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2) j).trans ?_
      rw [pay2_apply, scratch_eq c n (Nat.lt_of_succ_lt h) j]
      rfl
    · rw [outsAt0_B m c ⟨n + 1, h⟩ h0 h1]
      dsimp only
      refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2) j).trans ?_
      rw [pay2_apply, scratch_eq c n (Nat.lt_of_succ_lt h) j]
      rfl

/-- The grid has 64 points; the last is point 63. -/
theorem h63 : 63 < cfg0.N := by rw [show cfg0.N = 64 from N_0]; omega

/-- At the last point the output block holds minus the running total over `2^25`. -/
theorem out_last (c : Dev nD) (j : S1x1.Idx) :
    (outsAt0 m c 63 h63).1 j = -(Ideal.div (running m c 63 h63) (Ideal.ofBits .f32 0x4C000000#32)) := by
  have h0 : ¬ (⟨63, h63⟩ : Fin cfg0.N).val % 64 = 0 := by dsimp only; omega
  have h1 : (⟨63, h63⟩ : Fin cfg0.N).val % 64 = 63 := rfl
  rw [show outsAt0 m c 63 h63 = _ from outsAt0_C m c ⟨63, h63⟩ h0 h1]
  dsimp only
  refine (congrFun (out_C (F := Ideal) c (grid0.coords ⟨63, h63⟩) (ms0_0 ⟨63, h63⟩) (hs0_0 ⟨63, h63⟩) (ms0_1 ⟨63, h63⟩) (hs0_1 ⟨63, h63⟩) (ms0_2 ⟨63, h63⟩) (hs0_2 ⟨63, h63⟩) scM0_0 (Memref.isWhole_whole _) (fun hh => h0 ((hcond0_0 ⟨63, h63⟩).mp hh)) ((hcond0_1 ⟨63, h63⟩).mpr h1) (iblk m c 0 ⟨63, h63⟩) (iblk m c 1 ⟨63, h63⟩) (outsAt0 m c 62 (Nat.lt_of_succ_lt h63)).2) j).trans ?_
  rw [pay3_apply, pay2_apply, scratch_eq m c 62 (Nat.lt_of_succ_lt h63) j]
  rfl

end Cert.KernelIdeal.KAcc

end
-- ==== Proof.KRun.lean ====
/-
  The idealized kernel's result, as one function of the two score columns.

  The running total after the last point is the sum of the 64 blocks' contributions.  Block `t` of either
  [131072, 128] array is rows `2048 t .. 2048 t + 2047`, and that array is the column reshaped, so lane `l` of row
  `r` of block `t` is the column's entry at flat position `(2048 t + r) * 128 + l`; summed over blocks, rows and
  lanes the contributions are the column-wise total (`Spec.total`).  The one write-back, at the last point, writes the
  1x1 output array; the closing reshape to a scalar keeps the value: the program's result is `Spec.loss`.
-/
import proofs.«180265_j19825569038545_1_alg».proof.Proof.KAcc
import Idealize.ShloMosaic.Lib.StableHlo.Run

noncomputable section

namespace Cert.KernelIdeal.KRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KAcc

variable (m : (ℓ : Loc nD τ sig) → Buf (Elt Ideal) ℓ) (ρ : Dev nD → PrngReg)

/-- A score column, row by row. -/
abbrev col (x : (⟨2, ![16777216, 1]⟩ : Shape).Idx → EReal) : Fin 16777216 → EReal := fun i => x (ix2 i 0)

/-- Block `t`'s contribution. -/
abbrev contrib (c : Dev nD) (t : Fin cfg0.N) : EReal := Spec.blockSum (synBlk m c t) (antBlk m c t)

/-- The running total after point `n` is the sum of the contributions of points `0 .. n`. -/
theorem running_eq_sum (c : Dev nD) : ∀ (n : ℕ) (h : n < cfg0.N),
    running m c n h = ∑ t : Fin (n + 1), contrib m c ⟨t.val, by have := t.isLt; omega⟩
  | 0, h => by
    rw [Fin.sum_univ_one]
    show 0 + contrib m c ⟨0, h⟩ = _
    rw [zero_add]
    rfl
  | n + 1, h => by
    rw [Fin.sum_univ_castSucc]
    show running m c n (Nat.lt_of_succ_lt h) + contrib m c ⟨n + 1, h⟩ = _
    rw [running_eq_sum c n (Nat.lt_of_succ_lt h)]
    rfl

/-- Where the two input windows' blocks sit: block `t` at row offset `t` blocks, column offset zero. -/
theorem idx_facts : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- The first window's array is the first score column reshaped. -/
theorem V_v0 (c : Dev nD) : (V m c main_v0 : S131072x128.Idx → EReal)
    = shapeCast S131072x128 (m ((c : Thread nD τ).loc main_arg1)) shapeCasts_S16777216x1_S131072x128 := by
  show StableHlo.after hostOps0 (fun b => m (c, b)) (Proc.devRef .tc main_v0) = _
  after_results
  rfl

/-- The second window's array is the second score column reshaped. -/
theorem V_v1 (c : Dev nD) : (V m c main_v1 : S131072x128.Idx → EReal)
    = shapeCast S131072x128 (m ((c : Thread nD τ).loc main_arg2)) shapeCasts_S16777216x1_S131072x128 := by
  show StableHlo.after hostOps0 (fun b => m (c, b)) (Proc.devRef .tc main_v1) = _
  after_results
  rfl

/-- Lane `l` of row `r` of the first window's block at point `t` is the first column's entry at the flat position. -/
theorem syn_apply (c : Dev nD) (t : Fin cfg0.N) (r : Fin 2048) (l : Fin 128) :
    synBlk m c t (ix2 r l)
      = m ((c : Thread nD τ).loc main_arg1) (ix2 (Spec.flat ⟨t.val, lt_of_lt_of_eq t.isLt N_0⟩ r l) 0) := by
  unfold synBlk iblk
  rw [View.read_apply]
  show V m c main_v0 _ = _
  rw [V_v0]
  refine shapeCast_apply _ _ _ _ ?_
  refine (Shape.rowMajor_val_two (d := ![16777216, 1]) (ix2 (Spec.flat ⟨t.val, lt_of_lt_of_eq t.isLt N_0⟩ r l) (0 : Fin 1))).trans ?_
  refine Eq.trans ?_ (Shape.rowMajor_val_two (d := ![131072, 128]) _).symm
  show ((Spec.flat ⟨t.val, _⟩ r l).val * 1 + 0 : ℕ) = (win0_0.index t 0 * 2048 + 1 * r.val) * 128 + (win0_0.index t 1 * 128 + 1 * l.val)
  rw [(idx_facts t).1.1, (idx_facts t).1.2]
  show ((t.val * 2048 + r.val) * 128 + l.val) * 1 + 0 = _
  omega

/-- The same for the second window and the second column. -/
theorem ant_apply (c : Dev nD) (t : Fin cfg0.N) (r : Fin 2048) (l : Fin 128) :
    antBlk m c t (ix2 r l)
      = m ((c : Thread nD τ).loc main_arg2) (ix2 (Spec.flat ⟨t.val, lt_of_lt_of_eq t.isLt N_0⟩ r l) 0) := by
  unfold antBlk iblk
  rw [View.read_apply]
  show V m c main_v1 _ = _
  rw [V_v1]
  refine shapeCast_apply _ _ _ _ ?_
  refine (Shape.rowMajor_val_two (d := ![16777216, 1]) (ix2 (Spec.flat ⟨t.val, lt_of_lt_of_eq t.isLt N_0⟩ r l) (0 : Fin 1))).trans ?_
  refine Eq.trans ?_ (Shape.rowMajor_val_two (d := ![131072, 128]) _).symm
  show ((Spec.flat ⟨t.val, _⟩ r l).val * 1 + 0 : ℕ) = (win0_1.index t 0 * 2048 + 1 * r.val) * 128 + (win0_1.index t 1 * 128 + 1 * l.val)
  rw [(idx_facts t).2.1, (idx_facts t).2.2]
  show ((t.val * 2048 + r.val) * 128 + l.val) * 1 + 0 = _
  omega

/-- The running total after the last point is the column-wise total. -/
theorem running_last (c : Dev nD) :
    running m c 63 h63 = Spec.total (col (m ((c : Thread nD τ).loc main_arg1))) (col (m ((c : Thread nD τ).loc main_arg2))) := by
  rw [running_eq_sum, Spec.total_eq_blocks]
  refine Finset.sum_congr rfl fun t _ => ?_
  unfold contrib Spec.blockSum
  refine Finset.sum_congr rfl fun r _ => Finset.sum_congr rfl fun l _ => ?_
  rw [syn_apply, ant_apply]

/-- The output array's final contents: minus the running total over `2^25`, at its one index. -/
abbrev result (c : Dev nD) : Buf (Elt Ideal) ((c : Thread nD τ).loc main_v2) :=
  fun _ => -(Ideal.div (running m c 63 h63) (Ideal.ofBits .f32 0x4C000000#32))

/-- The one write-back, at the last point, writes that value. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have ht : t.val = 63 := by have := (flush0_2 t).mp hf; have := t.isLt; omega
  obtain rfl : t = ⟨63, h63⟩ := Fin.ext ht
  funext y
  show (dats m 0 c).after 2 ⟨63, h63⟩ ((cfg0.win 2).xinj (grid0.coords ⟨63, h63⟩) y) = _
  rw [after0_2, View.read_apply]
  show (outsAt0 m c 63 h63).1 _ = _
  rw [out_last]
  rfl

/-- The output array is 1x1 and the last point's block is all of it, so the array ends at that value. -/
theorem final_o (c : Dev nD) : (dats m 0 c).arrAt 2 cfg0.N = result m c :=
  (dats m 0 c).arrAt_eq_of_cover 2 (result m c) (flushed_eq m c) fun i =>
    ⟨⟨63, h63⟩, (flush0_2 ⟨63, h63⟩).mpr rfl, by
      show i ∈ ((View.whole main_v2).slice (win0_2.rect ⟨63, h63⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨63, h63⟩ 0 * win0_2.size 0 ≤ (i 0 : Nat) ∧ (i 0 : Nat) < win0_2.index ⟨63, h63⟩ 0 * win0_2.size 0 + win0_2.xsize (grid0.coords ⟨63, h63⟩) 0
        rw [show win0_2.index ⟨63, h63⟩ 0 * win0_2.size 0 = 0 from by decide +kernel, show win0_2.xsize (grid0.coords ⟨63, h63⟩) 0 = 1 from by decide +kernel]
        omega
      | ⟨1, _⟩ =>
        show win0_2.index ⟨63, h63⟩ 1 * win0_2.size 1 ≤ (i 1 : Nat) ∧ (i 1 : Nat) < win0_2.index ⟨63, h63⟩ 1 * win0_2.size 1 + win0_2.xsize (grid0.coords ⟨63, h63⟩) 1
        rw [show win0_2.index ⟨63, h63⟩ 1 * win0_2.size 1 = 0 from by decide +kernel, show win0_2.xsize (grid0.coords ⟨63, h63⟩) 1 = 1 from by decide +kernel]
        omega⟩

/-- The closing reshape of the 1x1 array to a scalar keeps the value: the program's result is the loss. -/
theorem tail_eq (c : Dev nD) :
    Pipeline.afterTail₀ cfgs (dats m) 0 (V0 m) [hostOps1] c main_v3
      = fun _ => Spec.loss (col (m ((c : Thread nD τ).loc main_arg1))) (col (m ((c : Thread nD τ).loc main_arg2))) := by
  unfold Pipeline.afterTail₀
  show StableHlo.after hostOps1 _ (Proc.devRef .tc main_v3) = _
  after_results
  have hA := (Pipeline.withArrays_arr spec0 launch0.win.arr_inj c (V0 m c) (fun w => (dats m 0 c).arrAt w cfg0.N) 2).trans (final_o m c)
  funext i
  show shapeCast S_ (Pipeline.withArrays spec0 c (V0 m c) (fun w => (dats m 0 c).arrAt w cfg0.N) (Proc.devRef .tc main_v2)) shapeCasts_S1x1_S_ i = _
  rw [show Pipeline.withArrays spec0 c (V0 m c) (fun w => (dats m 0 c).arrAt w cfg0.N) (Proc.devRef .tc main_v2) = result m c from hA]
  show -(Ideal.div (running m c 63 h63) (Ideal.ofBits .f32 0x4C000000#32)) = _
  rw [running_last]
  rfl

/-- THE RUN, READ: every weakly fair execution of the idealized kernel ends with its result at the loss of the two
    score columns and its three arguments unchanged. -/
theorem run : θ_run defs (onTc (τ := τ) (main (F := Ideal))) ⟨m, fun _ => 0, ρ⟩ fun r => ∀ c : Dev nD,
      r.2.mem ((c.tc : Thread nD τ).loc main_v3)
        = (fun _ => Spec.loss (col (m ((c.tc : Thread nD τ).loc main_arg1))) (col (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.Finite.lean ====
/-
  From the precondition to real scores.

  The precondition says: for each of the three inputs, every entry's absolute value compares below plus infinity, all
  three `all`s conjoined.  An extended real whose absolute value `max x (-x)` is below the top element is neither
  infinity, hence a real number.  Only the two score columns are used.
-/
import proofs.«180265_j19825569038545_1_alg».proof.Pre_finite_inputs
import proofs.«180265_j19825569038545_1_alg».proof.Proof.Gen.Pre_finite_inputs
import proofs.«180265_j19825569038545_1_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- An extended real whose absolute value compares below plus infinity is a real number. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition both score columns hold real numbers. -/
theorem finite_of_pre (x0 x1 x2 : FVec Ideal S16777216x1 .f32)
    (h : fn (F := Ideal) x0 x1 x2 = fun _ => 1#1) :
    (∀ j, ∃ r : ℝ, x1 j = (r : EReal)) ∧ (∀ j, ∃ r : ℝ, x2 j = (r : EReal)) := by
  have h' := congrFun h ValueIdx.ix0
  dsimp only [fn] at h'
  obtain ⟨h01, h2⟩ := IntOp.andi_eq_one.1 h'
  obtain ⟨_, h1⟩ := IntOp.andi_eq_one.1 h01
  refine ⟨fun j => ?_, fun j => ?_⟩
  · have e := Host.reduce_andi_all _ _ _ _ _ h1 j
    have e' : Ideal.cmp .olt (max (x1 j) (-(x1 j))) ⊤ = 1#1 := by
      rw [← Spec.ofBits_pos_inf]; exact e
    exact real_of_abs_lt _ e'
  · have e := Host.reduce_andi_all _ _ _ _ _ h2 j
    have e' : Ideal.cmp .olt (max (x2 j) (-(x2 j))) ⊤ = 1#1 := by
      rw [← Spec.ofBits_pos_inf]; exact e
    exact real_of_abs_lt _ e'

end Cert.Finite

end
-- ==== Proof.lean ====
/-
  The certificate's claims, assembled.

  Both programs compute the same loss of two score columns `s`, `a` of 16777216 rows (the first argument only fixes
  the row count and is never read): with `M = max s a` and `L = log (exp (s - M) + exp (a - M))` per row,
  minus the sum over rows of the row's term, over `2^25`.  The kernel groups a row's term as `(s + a) - 2 * (M + L)`
  and adds the rows block by block into a carried 1x1 accumulator (Proof/KPay, KPieces, KAcc, KRun); the reference
  forms the two log-probabilities `(s - M) - L`, `(a - M) - L` and takes minus their mean (Proof/RefVal over the
  reference's run).  On real scores the two groupings of a row agree (Proof/Spec); the precondition makes the scores
  real (Proof/Finite); the regrouping of the sum is a re-indexing of a finite sum.  The three frames are the kernel's
  two generated frame runs and the reference's run with its result dropped; the idealization rewrote nothing.
-/
import proofs.«180265_j19825569038545_1_alg».proof.Defs
import proofs.«180265_j19825569038545_1_alg».proof.Proof.Gen.Kernel
import proofs.«180265_j19825569038545_1_alg».proof.Proof.Gen.Kernel.Skeleton
import proofs.«180265_j19825569038545_1_alg».proof.Proof.Gen.Kernel.Launch
import proofs.«180265_j19825569038545_1_alg».proof.Proof.Gen.Kernel.Points
import proofs.«180265_j19825569038545_1_alg».proof.Proof.Gen.Kernel.Frame
import proofs.«180265_j19825569038545_1_alg».proof.Proof.Gen.KernelIdeal
import proofs.«180265_j19825569038545_1_alg».proof.Proof.Gen.KernelIdeal.Skeleton
import proofs.«180265_j19825569038545_1_alg».proof.Proof.Gen.KernelIdeal.Launch
import proofs.«180265_j19825569038545_1_alg».proof.Proof.Gen.KernelIdeal.Points
import proofs.«180265_j19825569038545_1_alg».proof.Proof.Gen.KernelIdeal.Frame
import proofs.«180265_j19825569038545_1_alg».proof.Proof.Gen.ReferenceIdeal
import proofs.«180265_j19825569038545_1_alg».proof.Proof.Gen.Pre_finite_inputs
import proofs.«180265_j19825569038545_1_alg».proof.Proof.RefRun
import proofs.«180265_j19825569038545_1_alg».proof.Proof.RefRead
import proofs.«180265_j19825569038545_1_alg».proof.Proof.RefVal
import proofs.«180265_j19825569038545_1_alg».proof.Proof.KRun
import proofs.«180265_j19825569038545_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments: its generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments, of which the precondition holds, both idealized programs end at the
    loss of the two score columns. -/
theorem algebraic : Cert.algebraic_KernelIdeal_ReferenceIdeal := by
  intro m ρ m' ρ' hpre hagree
  refine ⟨fun c => fun _ => Cert.Spec.loss
      (Cert.KernelIdeal.KRun.col (m ((c.tc : Thread Cert.KernelIdeal.nD Cert.KernelIdeal.τ).loc Cert.KernelIdeal.main_arg1)))
      (Cert.KernelIdeal.KRun.col (m ((c.tc : Thread Cert.KernelIdeal.nD Cert.KernelIdeal.τ).loc Cert.KernelIdeal.main_arg2))),
    Cert.KernelIdeal.KRun.run m ρ, ?_⟩
  refine (θ_run Cert.ReferenceIdeal.defs _ _).mono (fun _ h c => ⟨(h c).1.trans ?_, (h c).2⟩)
    (Cert.ReferenceIdeal.RunP.run (F := Ideal) m' ρ')
  obtain ⟨f1, f2⟩ := Cert.Finite.finite_of_pre _ _ _ (hpre c)
  rw [Cert.ReferenceIdeal.ReadP.val_main_v4_eq, (hagree c).2.1, (hagree c).2.2]
  exact Cert.ReferenceIdeal.RefVal.val_eq_loss _ _ f1 f2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
